-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 40
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseSpec.lean ====
/-
  The dense node update both programs compute, as one function of whole arrays, index by index.

  For node features `X` (100000 x 128), neighbour sums `A` of the same shape, a weight `W` (128 x 128) and a bias
  `b` (128 lanes):   dense X A W b [r, c]  =  Σ_k (X[r,k] + A[r,k]) · W[k,c]  +  b[c],
  and `relu Y [r, c] = max (Y[r,c]) 0`. Values are extended reals. Nothing here needs finiteness: the two programs
  build this same expression, the kernel 5000 rows at a time, and no law beyond reading a block through its rows is used.
-/
import Idealize.ShloMosaic.PureOps.Ideal
import Idealize.ShloMosaic.Lib.ValueIdx

noncomputable section

namespace Cert.Gin

open Idealize.ShloMosaic Idealize.ShloMosaic.ValueIdx

/-- Node-feature arrays: 100000 nodes, 128 lanes. -/
abbrev SN : Shape := ⟨2, ![100000, 128]⟩
/-- Weights: 128 x 128. -/
abbrev SW : Shape := ⟨2, ![128, 128]⟩

/-- One dense update at node `r = i 0`, lane `c = i 1`. -/
def dense (X A : SN.Idx → EReal) (W : SW.Idx → EReal) (b : Fin 128 → EReal) : SN.Idx → EReal :=
  fun i => (∑ k : Fin 128, (X (ix2 (i 0 : Fin 100000) k) + A (ix2 (i 0 : Fin 100000) k)) * W (ix2 k (i 1 : Fin 128))) + b (i 1 : Fin 128)

/-- The positive part, entry by entry. -/
def relu (Y : SN.Idx → EReal) : SN.Idx → EReal := fun i => max (Y i) 0

theorem dense_apply (X A : SN.Idx → EReal) (W : SW.Idx → EReal) (b : Fin 128 → EReal) (r : Fin 100000) (c : Fin 128) :
    dense X A W b (ix2 r c) = (∑ k : Fin 128, (X (ix2 r k) + A (ix2 r k)) * W (ix2 k c)) + b c := rfl

theorem relu_apply (Y : SN.Idx → EReal) (i : SN.Idx) : relu Y i = max (Y i) 0 := rfl

end Cert.Gin

end
-- ==== Proof.Agg.lean ====
/-
  The neighbour sums, as one function of a feature array `X` and the edge list `E` (2 x 1600000 integers: row 0 the
  source nodes, row 1 the destinations): gather row `src e` of `X` for every edge `e` (a negative source index first
  wrapped by adding the node count) and add it into row `dst e` of a zero array. Both programs apply exactly these host
  operations, so the proof never opens them: it only needs that both sides apply this one function to equal arrays.
-/
import proofs.«139474_j54898271977857_1_alg».proof.ReferenceIdeal
import proofs.«139474_j54898271977857_1_alg».proof.Proof.Gen.ReferenceIdeal
import Idealize.ShloMosaic.PureOps.Ideal

noncomputable section

namespace Cert.Gin

open Idealize.ShloMosaic Cert.ReferenceIdeal Cert.ReferenceIdeal.Facts₀ Cert.ReferenceIdeal.Facts

/-- Row `j` of the edge list as a vector of 1600000 node indices. -/
def edgeRow0 (E : (⟨S2x1600000, .i32⟩ : BufTy).Contents (Elt Ideal)) : (⟨S1600000, .i32⟩ : BufTy).Contents (Elt Ideal) :=
  shapeCast _ (extractStridedSlice S1x1600000 ![0, 0] E slices_S2x1600000_S1x1600000_0_0) shapeCasts_S1x1600000_S1600000
def edgeRow1 (E : (⟨S2x1600000, .i32⟩ : BufTy).Contents (Elt Ideal)) : (⟨S1600000, .i32⟩ : BufTy).Contents (Elt Ideal) :=
  shapeCast _ (extractStridedSlice S1x1600000 ![1, 0] E slices_S2x1600000_S1x1600000_1_0) shapeCasts_S1x1600000_S1600000

/-- The neighbour sums of `X` along the edges `E`. -/
def agg (X : (⟨S100000x128, .f32⟩ : BufTy).Contents (Elt Ideal)) (E : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edgeRow1 E))
    (Host.gather gather_S100000x128_S1600000x1_S1600000x128_1_0_n_n_0_1_1128 X
      (broadcastInDim S1600000x1 ![0] bcast_S1600000_S1600000x1_0
        (select (cmpi .slt (edgeRow0 E) (broadcastInDim S1600000 ![] bcast_S_S1600000 (constantI S_ 32 0#32)))
          (addi (edgeRow0 E) (broadcastInDim S1600000 ![] bcast_S_S1600000 (constantI S_ 32 100000#32)))
          (edgeRow0 E))))

end Cert.Gin

end
-- ==== Proof.KernelHost.lean ====
/-
  What each launch finds on entry, in terms of the launch memory `m`.

  Before the first launch the host operations leave: the features `x` and the weight `W1` as launched, the neighbour
  sums `agg x E`, and the bias `b1` reshaped to a 1 x 128 row. Between the launches they leave: the first launch's
  output `h` where it was written, `agg h E` (the same operations, on `h`), `W2` as launched and `b2` as a row. No
  host operation and no launch writes an argument or the index vectors cut out of the edge list.
-/
import proofs.«139474_j54898271977857_1_alg».proof.Proof.Gen.KernelIdeal.Frame
import proofs.«139474_j54898271977857_1_alg».proof.Proof.DenseSpec
import proofs.«139474_j54898271977857_1_alg».proof.Proof.Agg
import Idealize.ShloMosaic.Lib.StableHlo.Run
import Idealize.ShloMosaic.Lib.Pipeline.Value

set_option maxRecDepth 16384

noncomputable section

namespace Cert.Gin.Host

open Idealize.ShloMosaic Idealize.ShloMosaic.ValueIdx Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-! ## Before the first launch -/

theorem V1_x (c : Dev nD) : V1 m ρ c main_arg0 = m ((c : Thread nD τ).loc main_arg0) := by
  show StableHlo.after hostOps0 (W0 m ρ c) (Proc.devRef .tc main_arg0) = _
  after_results

theorem V1_w (c : Dev nD) : V1 m ρ c main_arg2 = m ((c : Thread nD τ).loc main_arg2) := by
  show StableHlo.after hostOps0 (W0 m ρ c) (Proc.devRef .tc main_arg2) = _
  after_results

theorem V1_a (c : Dev nD) : V1 m ρ c main_v13 = agg (m ((c : Thread nD τ).loc main_arg0)) (m ((c : Thread nD τ).loc main_arg1)) := by
  show StableHlo.after hostOps0 (W0 m ρ c) (Proc.devRef .tc main_v13) = _
  after_results; rfl

theorem V1_b (c : Dev nD) (q : Fin 128) : V1 m ρ c main_v14 (ix2 (0 : Fin 1) q) = m ((c : Thread nD τ).loc main_arg3) (ix1 q) := by
  have e : V1 m ρ c main_v14 = shapeCast S1x128 (m ((c : Thread nD τ).loc main_arg3)) shapeCasts_S128_S1x128 := by
    show StableHlo.after hostOps0 (W0 m ρ c) (Proc.devRef .tc main_v14) = _
    after_results; rfl
  rw [e]
  refine shapeCast_apply _ shapeCasts_S128_S1x128 (ix2 (0 : Fin 1) q) (ix1 q) ?_
  rw [Shape.rowMajor_val_one, Shape.rowMajor_val_two]
  show q.val = 0 * 128 + q.val
  omega

/-! ## At the first launch's exit: its output where it was written, everything else as it was entered -/

theorem W2_h (c : Dev nD) : W2 m ρ c (Proc.devRef .tc main_v15) = (dat0 (V1 m ρ) c).arrAt 4 cfg0.N :=
  W2_arr m ρ c 4

theorem W2_row0 (c : Dev nD) : W2 m ρ c (Proc.devRef .tc main_v1) = edgeRow0 (m ((c : Thread nD τ).loc main_arg1)) :=
  (W2_of_ne m ρ c main_v1 (by decide)).trans (by
    show StableHlo.after hostOps0 (W0 m ρ c) (Proc.devRef .tc main_v1) = _
    after_results; rfl)

theorem W2_row1 (c : Dev nD) : W2 m ρ c (Proc.devRef .tc main_v3) = edgeRow1 (m ((c : Thread nD τ).loc main_arg1)) :=
  (W2_of_ne m ρ c main_v3 (by decide)).trans (by
    show StableHlo.after hostOps0 (W0 m ρ c) (Proc.devRef .tc main_v3) = _
    after_results; rfl)

theorem W2_w (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_bias (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## Before the second launch -/

theorem V3_h (c : Dev nD) : V3 m ρ c main_v15 = (dat0 (V1 m ρ) c).arrAt 4 cfg0.N := by
  show StableHlo.after hostOps1 (W2 m ρ c) (Proc.devRef .tc main_v15) = _
  after_results
  exact W2_h m ρ c

theorem V3_w (c : Dev nD) : V3 m ρ c main_arg4 = m ((c : Thread nD τ).loc main_arg4) := by
  show StableHlo.after hostOps1 (W2 m ρ c) (Proc.devRef .tc main_arg4) = _
  after_results
  exact W2_w m ρ c

theorem V3_a (c : Dev nD) : V3 m ρ c main_v25 = agg ((dat0 (V1 m ρ) c).arrAt 4 cfg0.N) (m ((c : Thread nD τ).loc main_arg1)) := by
  show StableHlo.after hostOps1 (W2 m ρ c) (Proc.devRef .tc main_v25) = _
  after_results
  rw [W2_h, W2_row0, W2_row1]
  rfl

theorem V3_b (c : Dev nD) (q : Fin 128) : V3 m ρ c main_v26 (ix2 (0 : Fin 1) q) = m ((c : Thread nD τ).loc main_arg5) (ix1 q) := by
  have e : V3 m ρ c main_v26 = shapeCast S1x128 (m ((c : Thread nD τ).loc main_arg5)) shapeCasts_S128_S1x128 := by
    show StableHlo.after hostOps1 (W2 m ρ c) (Proc.devRef .tc main_v26) = _
    after_results
    rw [W2_bias]
    rfl
  rw [e]
  refine shapeCast_apply _ shapeCasts_S128_S1x128 (ix2 (0 : Fin 1) q) (ix1 q) ?_
  rw [Shape.rowMajor_val_one, Shape.rowMajor_val_two]
  show q.val = 0 * 128 + q.val
  omega

end Cert.Gin.Host

end
-- ==== Proof.Payload.lean ====
/-
  One grid point's arithmetic, read at an index of the block it stores, at the ideal instance.

  A point of either launch loads a 5000-row block `x` of the node features, the block `a` of the neighbour sums on
  the same rows, the whole 128 x 128 weight `w` and the bias as a 1 x 128 row `b`, and stores
  `(x + a) · w + b` (the first launch: its positive part). On the extended reals a change of float format is
  the identity and the matrix product into a zero accumulator is the plain sum over the contracted axis, so the
  stored block holds, at row `p` and lane `q`,   Σ_k (x[p,k] + a[p,k]) · w[k,q]  +  b[0,q].
-/
import proofs.«139474_j54898271977857_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Gin.Payload

open Idealize.ShloMosaic Idealize.ShloMosaic.ValueIdx Cert.KernelIdeal Cert.KernelIdeal.Gen

/-! ## The block product's operand indices: row `p` of the left operand, lane `q` of the right, the contracted
    coordinate on the other axis of each -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `p` and lane `q`: the sum over the 128 contracted
    coordinates of the left operand's row entry times the right operand's column entry. -/
theorem matmul_zero_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The bias row broadcast down the block's 5000 rows reads, at any row, the row's lane. -/
theorem bias_at (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The second launch's stored value at row `p`, lane `q`. -/
theorem dense_at (x a : FVec Ideal S5000x128 .f32) (w : FVec Ideal S128x128 .f32) (b : FVec Ideal S1x128 .f32) (p : Fin 5000) (q : Fin 128) :
    k1_pay1 (F := Ideal) x a w b (ix2 p q) = (∑ k : Fin 128, (x (ix2 p k) + a (ix2 p k)) * w (ix2 k q)) + b (ix2 0 q) := by
  unfold k1_pay1
  rw [addf_apply, matmul_zero_at, bias_at]
  simp only [truncf_apply, addf_apply, shapeCast_self]

/-- The first launch's stored value at row `p`, lane `q`: the positive part of the same expression. -/
theorem relu_dense_at (x a : FVec Ideal S5000x128 .f32) (w : FVec Ideal S128x128 .f32) (b : FVec Ideal S1x128 .f32) (p : Fin 5000) (q : Fin 128) :
    k0_pay1 (F := Ideal) x a w b (ix2 p q) = max ((∑ k : Fin 128, (x (ix2 p k) + a (ix2 p k)) * w (ix2 k q)) + b (ix2 0 q)) 0 := by
  unfold k0_pay1
  rw [maximumf_apply, addf_apply, matmul_zero_at, bias_at, broadcast_apply]
  simp only [truncf_apply, addf_apply, shapeCast_self]
  show max _ (Ideal.ofBits .f32 0x00000000#32) = _
  rw [Ideal.ofBits_zero_f32]

end Cert.Gin.Payload

end
-- ==== Proof.Region0.lean ====
/-
  The first launch's result array, whole: from the arrays the launch finds on entry (node features `X`, neighbour
  sums `A`, weight `W`, bias row `b`), whatever they are, its output ends holding  relu (dense X A W b).

  Point `t` of the 20-point grid reads rows 5000·t … 5000·t + 4999 of `X` and of `A`, all of `W` and the bias row, and
  writes the same rows of the output; the 20 row blocks tile the 100000 rows, so every entry is written, by exactly the
  point that owns its row.
-/
import proofs.«139474_j54898271977857_1_alg».proof.Proof.Gen.KernelIdeal.Frame
import proofs.«139474_j54898271977857_1_alg».proof.Proof.Payload
import proofs.«139474_j54898271977857_1_alg».proof.Proof.DenseSpec

set_option maxRecDepth 16384

noncomputable section

namespace Cert.Gin.Region0

open Idealize.ShloMosaic Idealize.ShloMosaic.ValueIdx Idealize.ShloMosaic.TcCoe Idealize.SL.Sem
open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The launch's output as a function of its entry arrays. -/
def G (c : Dev nD) : SN.Idx → EReal :=
  relu (dense (V c main_arg0) (V c main_v13) (V c main_arg2) (fun q => V c main_v14 (ix2 (0 : Fin 1) q)))

/-- The printed index maps over the grid: the row-blocked windows sit on block row `t`, lane block 0; the weight and the
    bias stay on their one block. -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## A point's blocks, read at explicit coordinates: block row `p` of point `t` is array row `r = 5000·t + p` -/

theorem read_x (c : Dev nD) (t : Fin cfg0.N) (p : Fin 5000) (k : Fin 128) (r : Fin 100000) (hr : r.val = 5000 * t.val + p.val) :
    iblk0 V c 0 t (ix2 p k) = V c main_arg0 (ix2 r k) := by
  obtain ⟨-, -, e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

theorem read_a (c : Dev nD) (t : Fin cfg0.N) (p : Fin 5000) (k : Fin 128) (r : Fin 100000) (hr : r.val = 5000 * t.val + p.val) :
    iblk0 V c 1 t (ix2 p k) = V c main_v13 (ix2 r k) := by
  obtain ⟨-, -, -, -, e0, e1, -⟩ := idx_facts t
  show V c main_v13 (((cfg0.win 1).blk t).view.emb (ix2 p k)) = V c main_v13 (ix2 r k)
  refine congrArg (V c main_v13) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

theorem read_w (c : Dev nD) (t : Fin cfg0.N) (k q : Fin 128) :
    iblk0 V c 2 t (ix2 k q) = V c main_arg2 (ix2 k q) := by
  obtain ⟨-, -, -, -, -, -, e0, e1, -⟩ := idx_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_b (c : Dev nD) (t : Fin cfg0.N) (q : Fin 128) :
    iblk0 V c 3 t (ix2 (0 : Fin 1) q) = V c main_v14 (ix2 (0 : Fin 1) q) := by
  obtain ⟨-, -, -, -, -, -, -, -, e0, e1⟩ := idx_facts t
  show V c main_v14 (((cfg0.win 3).blk t).view.emb (ix2 (0 : Fin 1) q)) = V c main_v14 (ix2 (0 : Fin 1) q)
  refine congrArg (V c main_v14) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- What point `t` writes back is block `t` of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := t.isLt
  obtain ⟨r, hr⟩ : ∃ r : Fin 100000, r.val = 5000 * t.val + p.val := ⟨⟨5000 * t.val + p.val, by have := p.isLt; omega⟩, rfl⟩
  obtain ⟨e0, e1, -⟩ := idx_facts t
  have he : ((cfg0.win 4).blk t).view.emb (ix2 p q) = ix2 r q := funext fun a => Fin.ext (by
    match a with
    | ⟨0, _⟩ => show win0_4.index t (0 : Fin 2) * 5000 + 1 * p.val = r.val; omega
    | ⟨1, _⟩ => show win0_4.index t (1 : Fin 2) * 128 + 1 * q.val = q.val; omega)
  show k0_pay1 (F := Ideal) (iblk0 V c 0 t) (iblk0 V c 1 t) (iblk0 V c 2 t) (iblk0 V c 3 t) (ix2 p q)
      = G V c (((cfg0.win 4).blk t).view.emb (ix2 p q))
  rw [he]
  refine (Payload.relu_dense_at (iblk0 V c 0 t) (iblk0 V c 1 t) (iblk0 V c 2 t) (iblk0 V c 3 t) p q).trans ?_
  unfold G
  rw [relu_apply, dense_apply, read_b V c t q]
  refine congrArg (fun s => max (s + V c main_v14 (ix2 (0 : Fin 1) q)) 0) (Finset.sum_congr rfl fun k _ => ?_)
  rw [read_x V c t p k r hr, read_a V c t p k r hr, read_w V c t k q]

/-- An index is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15).slice (win0_4.rect t)).set ↔ _
  rw [View.set_slice_whole, Rect.mem_set_unit]
  exact Iff.rfl

/-- The 20 row blocks tile the array: row `r` is in the block of point `r / 5000`. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e0, e1, -⟩ := idx_facts t
  have tv : t.val = (i 0).val / 5000 := rfl
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the launch, whole. -/
theorem final (c : Dev nD) : (dat0 V c).arrAt 4 cfg0.N = G V c :=
  (dat0 V c).arrAt_eq_of_cover 4 (G V c) (fun t _ => flushed_eq V c t) cover

end Cert.Gin.Region0

end
-- ==== Proof.Region1.lean ====
/-
  The second launch's result array, whole: from the arrays the launch finds on entry (hidden features `H`, their
  neighbour sums `A`, weight `W`, bias row `b`), whatever they are, its output ends holding  dense H A W b.

  As in the first launch, point `t` of the 20-point grid reads rows 5000·t … 5000·t + 4999 of `H` and of `A`, all of `W`
  and the bias row, and writes the same rows of the output; the 20 row blocks tile the 100000 rows.
-/
import proofs.«139474_j54898271977857_1_alg».proof.Proof.Gen.KernelIdeal.Frame
import proofs.«139474_j54898271977857_1_alg».proof.Proof.Payload
import proofs.«139474_j54898271977857_1_alg».proof.Proof.DenseSpec

set_option maxRecDepth 16384

noncomputable section

namespace Cert.Gin.Region1

open Idealize.ShloMosaic Idealize.ShloMosaic.ValueIdx Idealize.ShloMosaic.TcCoe Idealize.SL.Sem
open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The launch's output as a function of its entry arrays. -/
def G (c : Dev nD) : SN.Idx → EReal :=
  dense (V c main_v15) (V c main_v25) (V c main_arg4) (fun q => V c main_v26 (ix2 (0 : Fin 1) q))

/-- The printed index maps over the grid: the row-blocked windows sit on block row `t`, lane block 0; the weight and the
    bias stay on their one block. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-! ## A point's blocks, read at explicit coordinates: block row `p` of point `t` is array row `r = 5000·t + p` -/

theorem read_h (c : Dev nD) (t : Fin cfg1.N) (p : Fin 5000) (k : Fin 128) (r : Fin 100000) (hr : r.val = 5000 * t.val + p.val) :
    iblk1 V c 0 t (ix2 p k) = V c main_v15 (ix2 r k) := by
  obtain ⟨-, -, e0, e1, -⟩ := idx_facts t
  show V c main_v15 (((cfg1.win 0).blk t).view.emb (ix2 p k)) = V c main_v15 (ix2 r k)
  refine congrArg (V c main_v15) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem read_a (c : Dev nD) (t : Fin cfg1.N) (p : Fin 5000) (k : Fin 128) (r : Fin 100000) (hr : r.val = 5000 * t.val + p.val) :
    iblk1 V c 1 t (ix2 p k) = V c main_v25 (ix2 r k) := by
  obtain ⟨-, -, -, -, e0, e1, -⟩ := idx_facts t
  show V c main_v25 (((cfg1.win 1).blk t).view.emb (ix2 p k)) = V c main_v25 (ix2 r k)
  refine congrArg (V c main_v25) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

theorem read_w (c : Dev nD) (t : Fin cfg1.N) (k q : Fin 128) :
    iblk1 V c 2 t (ix2 k q) = V c main_arg4 (ix2 k q) := by
  obtain ⟨-, -, -, -, -, -, e0, e1, -⟩ := idx_facts t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read_b (c : Dev nD) (t : Fin cfg1.N) (q : Fin 128) :
    iblk1 V c 3 t (ix2 (0 : Fin 1) q) = V c main_v26 (ix2 (0 : Fin 1) q) := by
  obtain ⟨-, -, -, -, -, -, -, -, e0, e1⟩ := idx_facts t
  show V c main_v26 (((cfg1.win 3).blk t).view.emb (ix2 (0 : Fin 1) q)) = V c main_v26 (ix2 (0 : Fin 1) q)
  refine congrArg (V c main_v26) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- What point `t` writes back is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := t.isLt
  obtain ⟨r, hr⟩ : ∃ r : Fin 100000, r.val = 5000 * t.val + p.val := ⟨⟨5000 * t.val + p.val, by have := p.isLt; omega⟩, rfl⟩
  obtain ⟨e0, e1, -⟩ := idx_facts t
  have he : ((cfg1.win 4).blk t).view.emb (ix2 p q) = ix2 r q := funext fun a => Fin.ext (by
    match a with
    | ⟨0, _⟩ => show win1_4.index t (0 : Fin 2) * 5000 + 1 * p.val = r.val; omega
    | ⟨1, _⟩ => show win1_4.index t (1 : Fin 2) * 128 + 1 * q.val = q.val; omega)
  show k1_pay1 (F := Ideal) (iblk1 V c 0 t) (iblk1 V c 1 t) (iblk1 V c 2 t) (iblk1 V c 3 t) (ix2 p q)
      = G V c (((cfg1.win 4).blk t).view.emb (ix2 p q))
  rw [he]
  refine (Payload.dense_at (iblk1 V c 0 t) (iblk1 V c 1 t) (iblk1 V c 2 t) (iblk1 V c 3 t) p q).trans ?_
  unfold G
  rw [dense_apply, read_b V c t q]
  refine congrArg (fun s => s + V c main_v26 (ix2 (0 : Fin 1) q)) (Finset.sum_congr rfl fun k _ => ?_)
  rw [read_h V c t p k r hr, read_a V c t p k r hr, read_w V c t k q]

/-- An index is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v27).slice (win1_4.rect t)).set ↔ _
  rw [View.set_slice_whole, Rect.mem_set_unit]
  exact Iff.rfl

/-- The 20 row blocks tile the array: row `r` is in the block of point `r / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨e0, e1, -⟩ := idx_facts t
  have tv : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the launch, whole. -/
theorem final (c : Dev nD) : (dat1 V c).arrAt 4 cfg1.N = G V c :=
  (dat1 V c).arrAt_eq_of_cover 4 (G V c) (fun t _ => flushed_eq V c t) cover

end Cert.Gin.Region1

end
-- ==== Proof.KernelValue.lean ====
/-
  The kernel program's result array at return, in terms of the launch memory: with `E` the edge list,
    h   = relu (dense x (agg x E) W1 b1)      (the first launch's output, whole),
    out = dense h (agg h E) W2 b2             (the second launch's output, whole).
  Each launch's output is the specification's function of what the launch finds on entry; what it finds is what the host
  operations before it leave.
-/
import proofs.«139474_j54898271977857_1_alg».proof.Proof.KernelHost
import proofs.«139474_j54898271977857_1_alg».proof.Proof.Region0
import proofs.«139474_j54898271977857_1_alg».proof.Proof.Region1

set_option maxRecDepth 16384

noncomputable section

namespace Cert.Gin.Kernel

open Idealize.ShloMosaic Idealize.ShloMosaic.ValueIdx Idealize.ShloMosaic.TcCoe Idealize.SL.Sem
open Cert.KernelIdeal Cert.KernelIdeal.Gen Cert.Gin

variable (m : (ℓ : Loc nD τ sig) → Buf (Elt Ideal) ℓ) (ρ : Dev nD → PrngReg)

/-- The hidden features, from the launch memory. -/
def hidden (c : Dev nD) : SN.Idx → EReal :=
  relu (dense (m ((c : Thread nD τ).loc main_arg0)) (agg (m ((c : Thread nD τ).loc main_arg0)) (m ((c : Thread nD τ).loc main_arg1))) (m ((c : Thread nD τ).loc main_arg2)) (fun q => m ((c : Thread nD τ).loc main_arg3) (ix1 q)))

/-- The first launch leaves the hidden features. -/
theorem first_launch (c : Dev nD) : (dat0 (V1 m ρ) c).arrAt 4 cfg0.N = hidden m c := by
  rw [Region0.final (V1 m ρ) c]
  unfold Region0.G hidden
  rw [Host.V1_x, Host.V1_a, Host.V1_w]
  have hb : (fun q : Fin 128 => V1 m ρ c main_v14 (ix2 (0 : Fin 1) q)) = fun q => m ((c : Thread nD τ).loc main_arg3) (ix1 q) :=
    funext fun q => Host.V1_b m ρ c q
  rw [hb]

/-- The result array at return. -/
theorem result_value (c : Dev nD) : W4 m ρ c (Proc.devRef .tc main_v27)
    = dense (hidden m c) (agg (hidden m c) (m ((c : Thread nD τ).loc main_arg1))) (m ((c : Thread nD τ).loc main_arg4)) (fun q => m ((c : Thread nD τ).loc main_arg5) (ix1 q)) := by
  show W4 m ρ c (Proc.devRef .tc (Pipeline.arrRef spec1 4)) = _
  rw [W4_arr m ρ c 4, Region1.final (V3 m ρ) c]
  unfold Region1.G
  rw [Host.V3_h, Host.V3_a, Host.V3_w, first_launch]
  have hb : (fun q : Fin 128 => V3 m ρ c main_v26 (ix2 (0 : Fin 1) q)) = fun q => m ((c : Thread nD τ).loc main_arg5) (ix1 q) :=
    funext fun q => Host.V3_b m ρ c q
  rw [hb]

end Cert.Gin.Kernel

end
-- ==== Proof.RefValue.lean ====
/-
  The reference's result as the two dense updates of the specification.

  Read one host operation at a time, the reference computes, with `agg` the neighbour sums along the edge list `E`:
    h   = relu (dense x (agg x E) W1 b1)         (an add, a product with `W1` as a sum over the contracted lane, the bias
                                                  broadcast down the rows, a maximum with zero),
    out = dense h (agg h E) W2 b2.
  The gather and the scatter-add inside `agg` are never opened.
-/
import proofs.«139474_j54898271977857_1_alg».proof.Proof.Gen.ReferenceIdeal.Read
import proofs.«139474_j54898271977857_1_alg».proof.Proof.DenseSpec
import proofs.«139474_j54898271977857_1_alg».proof.Proof.Agg

noncomputable section

namespace Cert.Gin.Ref

open Idealize.ShloMosaic Idealize.ShloMosaic.ValueIdx Cert.ReferenceIdeal Cert.ReferenceIdeal.Read Cert.Gin

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first layer's neighbour sums are `agg` of the input features. -/
theorem v13_eq : val_main_v13 (F := Ideal) x0 x1 = agg x0 x1 := rfl

/-- The second layer's neighbour sums are `agg` of the hidden features. -/
theorem v29_eq : val_main_v29 (F := Ideal) x0 x1 x2 x3 = agg (val_main_v19 (F := Ideal) x0 x1 x2 x3) x1 := rfl

/-! ## The composed index functions of the reading lemmas, at explicit coordinates -/

theorem lidx15 (r : Fin 100000) (c k : Fin 128) : lidx_main_v15 (ix2 r c) k = ix2 r k :=
  funext fun a => Fin.ext (by match a with | ⟨0, _⟩ => rfl | ⟨1, _⟩ => rfl)
theorem ridx15 (r : Fin 100000) (c k : Fin 128) : ridx_main_v15 (ix2 r c) k = ix2 k c :=
  funext fun a => Fin.ext (by match a with | ⟨0, _⟩ => rfl | ⟨1, _⟩ => rfl)
theorem bidx17 (r : Fin 100000) (c : Fin 128) : idx_main_v16 (idx_main_v17 (ix2 r c)) = ix1 c :=
  funext fun a => Fin.ext (by match a with | ⟨0, _⟩ => rfl)
theorem lidx31 (r : Fin 100000) (c k : Fin 128) : lidx_main_v31 (ix2 r c) k = ix2 r k :=
  funext fun a => Fin.ext (by match a with | ⟨0, _⟩ => rfl | ⟨1, _⟩ => rfl)
theorem ridx31 (r : Fin 100000) (c k : Fin 128) : ridx_main_v31 (ix2 r c) k = ix2 k c :=
  funext fun a => Fin.ext (by match a with | ⟨0, _⟩ => rfl | ⟨1, _⟩ => rfl)
theorem bidx33 (r : Fin 100000) (c : Fin 128) : idx_main_v32 (idx_main_v33 (ix2 r c)) = ix1 c :=
  funext fun a => Fin.ext (by match a with | ⟨0, _⟩ => rfl)

/-! ## The two layers -/

/-- The first layer before its maximum: the dense update of the input features. -/
theorem v18_dense : (val_main_v18 (F := Ideal) x0 x1 x2 x3 : SN.Idx → EReal) = dense x0 (agg x0 x1) x2 (fun q => x3 (ix1 q)) := by
  funext i
  obtain ⟨r, c, rfl⟩ : ∃ (r : Fin 100000) (c : Fin 128), i = ix2 r c := ⟨i 0, i 1, eq_ix2 i⟩
  rw [val_main_v18_apply, val_main_v15_apply, val_main_v17_apply, val_main_v16_apply, dense_apply, bidx17, Ideal.addf_def]
  refine congrArg (fun s => s + x3 (ix1 c)) (Finset.sum_congr rfl fun k _ => ?_)
  rw [lidx15, ridx15, val_main_v14_apply, v13_eq, Ideal.addf_def]

/-- The hidden features: its positive part. -/
theorem v19_relu : (val_main_v19 (F := Ideal) x0 x1 x2 x3 : SN.Idx → EReal) = relu (dense x0 (agg x0 x1) x2 (fun q => x3 (ix1 q))) := by
  funext i
  rw [val_main_v19_apply, val_main_call0_v0_apply, val_main_call0_cst_apply, relu_apply, ← v18_dense, Ideal.maximumf_def, Ideal.ofBits_def, Ideal.ofBits_zero_f32]

/-- The second layer: the dense update of the hidden features. -/
theorem v34_dense : (val_main_v34 (F := Ideal) x0 x1 x2 x3 x4 x5 : SN.Idx → EReal)
    = dense (val_main_v19 (F := Ideal) x0 x1 x2 x3) (agg (val_main_v19 (F := Ideal) x0 x1 x2 x3) x1) x4 (fun q => x5 (ix1 q)) := by
  funext i
  obtain ⟨r, c, rfl⟩ : ∃ (r : Fin 100000) (c : Fin 128), i = ix2 r c := ⟨i 0, i 1, eq_ix2 i⟩
  rw [val_main_v34_apply, val_main_v31_apply, val_main_v33_apply, val_main_v32_apply, dense_apply, bidx33, Ideal.addf_def]
  refine congrArg (fun s => s + x5 (ix1 c)) (Finset.sum_congr rfl fun k _ => ?_)
  rw [lidx31, ridx31, val_main_v30_apply, v29_eq, Ideal.addf_def]

/-- The reference's result, whole, in the specification's words. -/
theorem ref_value : (val_main_v34 (F := Ideal) x0 x1 x2 x3 x4 x5 : SN.Idx → EReal)
    = dense (relu (dense x0 (agg x0 x1) x2 (fun q => x3 (ix1 q))))
        (agg (relu (dense x0 (agg x0 x1) x2 (fun q => x3 (ix1 q)))) x1) x4 (fun q => x5 (ix1 q)) := by
  rw [v34_dense, v19_relu]

end Cert.Gin.Ref

end
-- ==== Proof.lean ====
/-
  Two graph-convolution layers, `out = dense h (agg h E) W2 b2` with `h = relu (dense x (agg x E) W1 b1)`, where
  `agg` sums each node's incoming neighbour rows along the edge list `E` and
  `dense X A W b [r, c] = Σ_k (X[r,k] + A[r,k]) · W[k,c] + b[c]`.

  The kernel program computes `agg` by the same host gather and scatter-add as the reference and each dense update in a
  launch of 20 grid points, 5000 rows a point; the reference computes each dense update as one whole-array product. On the
  extended reals the kernel's narrowing of the product's operands is the identity and a block of the product is the
  product's rows, so the two results are one function of the arguments, entry by entry; no finiteness is used.

  The frames: the two kernel programs' are the frame certificates of their two launches among the host operations; the
  reference's is its run with the result dropped. The idealization rewrote nothing, so `preserves` has nothing to say.
-/
import proofs.«139474_j54898271977857_1_alg».proof.Defs
import proofs.«139474_j54898271977857_1_alg».proof.Proof.Gen.Kernel
import proofs.«139474_j54898271977857_1_alg».proof.Proof.Gen.Kernel.Skeleton
import proofs.«139474_j54898271977857_1_alg».proof.Proof.Gen.Kernel.Launch
import proofs.«139474_j54898271977857_1_alg».proof.Proof.Gen.Kernel.Points
import proofs.«139474_j54898271977857_1_alg».proof.Proof.Gen.Kernel.Frame
import proofs.«139474_j54898271977857_1_alg».proof.Proof.Gen.KernelIdeal
import proofs.«139474_j54898271977857_1_alg».proof.Proof.Gen.KernelIdeal.Skeleton
import proofs.«139474_j54898271977857_1_alg».proof.Proof.Gen.KernelIdeal.Launch
import proofs.«139474_j54898271977857_1_alg».proof.Proof.Gen.KernelIdeal.Points
import proofs.«139474_j54898271977857_1_alg».proof.Proof.Gen.KernelIdeal.Frame
import proofs.«139474_j54898271977857_1_alg».proof.Proof.Gen.ReferenceIdeal
import proofs.«139474_j54898271977857_1_alg».proof.Proof.Gen.ReferenceIdeal.Run
import proofs.«139474_j54898271977857_1_alg».proof.Proof.Gen.ReferenceIdeal.Read
import proofs.«139474_j54898271977857_1_alg».proof.Proof.Gen.Pre_finite_inputs
import proofs.«139474_j54898271977857_1_alg».proof.Proof.KernelRun
import proofs.«139474_j54898271977857_1_alg».proof.Proof.KernelValue
import proofs.«139474_j54898271977857_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end, the kernel program's result array at the two dense
    updates of its launch memory, the reference's at the same two updates of its own: equal, the arguments being equal. -/
theorem algebraic : Cert.algebraic_KernelIdeal_ReferenceIdeal := by
  intro m ρ m' ρ' _ hagree
  refine ⟨fun c => Cert.KernelIdeal.Gen.W4 m ρ c (Proc.devRef .tc Cert.KernelIdeal.main_v27),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v34_eq, a0, a1, a2, a3, a4, a5]
  refine (Cert.Gin.Ref.ref_value _ _ _ _ _ _).trans ?_
  exact (Cert.Gin.Kernel.result_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
